-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : FVec F S128x128 .f32) (main_arg3 : FVec F S128 .f32) (main_arg4 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 64
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S2x1600000, .i32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S2x1600000, .i32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Aggregation.lean ====
/-
  The aggregation over the edge list, stated once.

  From the edge array e : [2, 1600000] both programs build, with the same host operations in the same order:
    src, dst   the two rows of e, each followed by the self loops 0, 1, ..., 99999;
    wrap v     v + 100000 where v < 0, else v (a negative index counted from the end);
    deg        the number of edges arriving at each node: ones scatter-added at dst into zeros;
    dis        1 / sqrt deg where deg > 0, else 0;
    norm       per edge, dis at the wrapped source times dis at the wrapped destination;
    agg h      the rows of h gathered at the wrapped sources, each scaled by its edge's norm, scatter-added at dst
               into zeros.
  The layer's result is max (agg (x W) + b, 0).
-/
import proofs.«180609_j6150393168665_1_alg».proof.Proof.Gen.KernelIdeal
import Idealize.ShloMosaic.PureOps.Ideal

noncomputable section

namespace Cert.KernelIdeal.Agg

open Cert.KernelIdeal Cert.KernelIdeal.Gen
open Idealize.ShloMosaic

variable (e : IVec S2x1600000 32)

/-- The edges' source nodes, then every node once (the self loops). -/
def src : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The edges' destination nodes, then every node once (the self loops). -/
def dst : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A negative index is counted from the end of the 100000 nodes. -/
def wrap (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- Each node's degree: a one for every edge arriving at it, summed into zeros. -/
def deg : FVec Ideal S100000 .f32 :=
  Host.scatterAdd (F := Ideal) scatter_S100000_S1700000x1_S1700000_n_0_0_1
    (broadcastInDim S100000 ![] bcast_S_S100000 (constant S_ .f32 0x00000000#32))
    (broadcastInDim S1700000x1 ![0] bcast_S1700000_S1700000x1_0 (dst e))
    (broadcastInDim S1700000 ![] bcast_S_S1700000 (constant S_ .f32 0x3F800000#32))

/-- The degree normaliser: the reciprocal square root of a positive degree, zero otherwise. -/
def dis : FVec Ideal S100000 .f32 :=
  select (cmpf (F := Ideal) .ogt (deg e) (broadcastInDim S100000 ![] bcast_S_S100000 (constant S_ .f32 0x00000000#32)))
    (Host.rsqrt (deg e))
    (broadcastInDim S100000 ![] bcast_S_S100000 (id (constant S_ .f32 0x00000000#32)))

/-- Each edge's weight: the normaliser at its source times the normaliser at its destination. -/
def norm : FVec Ideal S1700000 .f32 :=
  mulf (Host.gather gather_S100000_S1700000x1_S1700000_n_0_n_n_0_1_1 (dis e)
      (broadcastInDim S1700000x1 ![0] bcast_S1700000_S1700000x1_0 (wrap (src e))))
    (Host.gather gather_S100000_S1700000x1_S1700000_n_0_n_n_0_1_1 (dis e)
      (broadcastInDim S1700000x1 ![0] bcast_S1700000_S1700000x1_0 (wrap (dst e))))

/-- The aggregation of an array of rows: each edge's source row, scaled by the edge's weight, summed at its destination. -/
def agg (h : FVec Ideal S100000x128 .f32) : FVec Ideal S100000x128 .f32 :=
  Host.scatterAdd (F := Ideal) scatter_S100000x128_S1700000x1_S1700000x128_1_0_0_1
    (broadcastInDim S100000x128 ![] bcast_S_S100000x128 (constant S_ .f32 0x00000000#32))
    (broadcastInDim S1700000x1 ![0] bcast_S1700000_S1700000x1_0 (dst e))
    (mulf (Host.gather gather_S100000x128_S1700000x1_S1700000x128_1_0_n_n_0_1_1128 h
        (broadcastInDim S1700000x1 ![0] bcast_S1700000_S1700000x1_0 (wrap (src e))))
      (broadcastInDim S1700000x128 ![0, 1] bcast_S1700000x1_S1700000x128_0_1
        (broadcastInDim S1700000x1 ![0] bcast_S1700000_S1700000x1_0 (norm e))))

end Cert.KernelIdeal.Agg

end
-- ==== Proof.RefValue.lean ====
/-
  The reference's result is max (agg (x W) + b, 0).

  The reference's run ends with its result at one composed term of the arguments. Read against the definitions of the
  aggregation, that term is: the host's plain product of x and the weights, aggregated over the edge list, plus the
  bias broadcast to every row, clamped below at zero. The two spell the same operations in the same order, so the
  equation holds by unfolding the definitions.
-/
import proofs.«180609_j6150393168665_1_alg».proof.Proof.Aggregation
import proofs.«180609_j6150393168665_1_alg».proof.Proof.RefRun

set_option maxRecDepth 16384

noncomputable section

namespace Cert.ReferenceIdeal.RefValue

open Idealize.ShloMosaic Idealize.ShloMosaic.TcCoe Idealize.SL.Sem
open Cert.KernelIdeal (S100000x128 S128x128 S128 S1x128 S_ S2x1600000)

/-- The layer as one function of the four arrays it reads: the product aggregated, plus the bias, clamped. -/
def layer (x : FVec Ideal S100000x128 .f32) (w : FVec Ideal S128x128 .f32) (b : FVec Ideal S128 .f32)
    (e : IVec S2x1600000 32) : FVec Ideal S100000x128 .f32 :=
  maximumf
    (addf
      (Cert.KernelIdeal.Agg.agg e
        (Host.dotGeneral (F := Ideal) (φ₁ := .f32) (φ₂ := .f32) Cert.ReferenceIdeal.dot_S100000x128_S128x128_S100000x128_1_0_0_1_n_n none x w))
      (broadcastInDim S100000x128 ![0, 1] Cert.ReferenceIdeal.Gen.bcast_S1x128_S100000x128_0_1
        (broadcastInDim S1x128 ![1] Cert.ReferenceIdeal.Gen.bcast_S128_S1x128_1 b)))
    (broadcastInDim S100000x128 ![] Cert.ReferenceIdeal.Gen.bcast_S_S100000x128 (constant S_ .f32 0x00000000#32))

/-- The reference's result term is the layer of its four arguments. -/
theorem result_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.RefRun.res_main_v47 (F := Ideal) m' c
      = layer (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) := by
  unfold Cert.ReferenceIdeal.RefRun.res_main_v47
  rfl

end Cert.ReferenceIdeal.RefValue

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.Region0Value.lean ====
/-
  Region 0 of the kernel program (the linear map), at the exact instance.

  Each of the ten grid points takes a block of 10000 rows of x and the whole 128 x 128 weight array, and writes back
  the block's matrix product with the weights, accumulated into zero. At the exact instance a change of float format
  is the identity, so entry (p, q) of the block written is the finite sum over k of x (p, k) * W (k, q). The blocks are
  consecutive bands of rows, so every entry (r, q) of the output array is written by exactly the point r / 10000,
  and the array the region leaves is the one whole-array function `product` of the two arrays the region found.
-/
import proofs.«180609_j6150393168665_1_alg».proof.Proof.Gen.KernelIdeal.Frame
import proofs.«180609_j6150393168665_1_alg».proof.Proof.LibMatmulPlain
import Idealize.ShloMosaic.Lib.Pipeline.Value
import Idealize.ShloMosaic.Lib.ValueIdx
import Idealize.ShloMosaic.PureOps.Ideal

set_option maxRecDepth 16384

noncomputable section

namespace Cert.KernelIdeal.Linear

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The origin of a rank-2 rectangle, as the constant-zero function. -/
theorem origin2 : (![0, 0] : Fin 2 → Nat) = fun _ => 0 := funext fun a => by fin_cases a <;> rfl

/-- The printed contraction is the plain one: the left operand contracted on its columns, the right on its rows,
    no batch axes. -/
theorem dims_eq : dot_S10000x128_S128x128_S10000x128_1_0_0_1_n_n = DotDims.plain 10000 128 128 := rfl

/-- The matrix product of a 100000 x 128 array by a 128 x 128 array, entry by entry. -/
def product (x : FVec Ideal S100000x128 .f32) (w : FVec Ideal S128x128 .f32) : FVec Ideal S100000x128 .f32 :=
  fun i => ∑ k : Fin 128, x (ix2 (⟨(i 0).val, (i 0).isLt⟩ : Fin 100000) k) * w (ix2 k (⟨(i 1).val, (i 1).isLt⟩ : Fin 128))

/-- The body's stored value at entry (p, q) of a block: the sum over k of the block's (p, k) times the weights' (k, q). -/
theorem payload_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  rw [dims_eq]
  exact MatmulPlain.matmul_zero_apply none (truncf .bf16 x0 bitsLt_bf16_f32) (truncf .bf16 x1 bitsLt_bf16_f32) p q

variable (V : (c : Dev nD) → (b : Ref sig .tc) → Buf (Elt Ideal) ((c : Thread nD τ).loc b))

/-- The array x as region 0 finds it, at its literal type. -/
abbrev xArr (c : Dev nD) : FVec Ideal S100000x128 .f32 := V c main_arg0
/-- The weight array as region 0 finds it, at its literal type. -/
abbrev wArr (c : Dev nD) : FVec Ideal S128x128 .f32 := V c main_arg2

/-- The index maps over the grid: the row-block index of x and of the output is the point itself; the weights'
    window and every column-block index stay at zero. -/
theorem index_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- What point `t` writes back is block `t` of `product` of the two arrays the region found. -/
theorem flushed_eq (c : Dev nD) (t : Fin cfg0.N) :
    (dat0 V c).flushed 2 t
      = ((cfg0.win 2).blk t).view.read (Elt Ideal) (product (xArr V c) (wArr V c)) := by
  show (cfg0.win 2).cut (grid0.coords t) ((dat0 V c).after 2 t) = _
  rw [after0_2]
  unfold out0_2
  rw [View.canon_unit_zero origin2]
  simp only [View.ld_unit_zero (S := S10000x128) origin2, View.ld_unit_zero (S := S128x128) origin2]
  obtain ⟨e0, e1, e2, e3, e4, e5⟩ := index_facts t
  funext j
  obtain ⟨p, q, rfl⟩ : ∃ (p : Fin 10000) (q : Fin 128), j = ix2 p q := ⟨j 0, j 1, eq_ix2 j⟩
  refine (payload_apply (iblk0 V c 0 t) (iblk0 V c 1 t) p q).trans ?_
  show ∑ k : Fin 128, xArr V c (((cfg0.win 0).blk t).view.emb (ix2 p k)) * wArr V c (((cfg0.win 1).blk t).view.emb (ix2 k q))
    = ∑ k : Fin 128, xArr V c (ix2 (⟨((((cfg0.win 2).blk t).view.emb (ix2 p q)) 0).val, ((((cfg0.win 2).blk t).view.emb (ix2 p q)) 0).isLt⟩ : Fin 100000) k)
        * wArr V c (ix2 k (⟨((((cfg0.win 2).blk t).view.emb (ix2 p q)) 1).val, ((((cfg0.win 2).blk t).view.emb (ix2 p q)) 1).isLt⟩ : Fin 128))
  refine Finset.sum_congr rfl fun k _ => ?_
  have h0 : ((cfg0.win 0).blk t).view.emb (ix2 p k)
      = ix2 (⟨((((cfg0.win 2).blk t).view.emb (ix2 p q)) 0).val, ((((cfg0.win 2).blk t).view.emb (ix2 p q)) 0).isLt⟩ : Fin 100000) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q)
      = ix2 k (⟨((((cfg0.win 2).blk t).view.emb (ix2 p q)) 1).val, ((((cfg0.win 2).blk t).view.emb (ix2 p q)) 1).isLt⟩ : Fin 128) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the output array is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every entry (r, q) of the output array lies in the block of the point r / 10000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  let t : Fin cfg0.N := ⟨(i 0).val / 10000, by show (i 0).val / 10000 < grid0.N; rw [hN]; omega⟩
  obtain ⟨e0, e1, e2, e3, e4, e5⟩ := index_facts t
  have e5' : win0_2.index t (0 : Fin 2) = (i 0).val / 10000 := e5
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The array region 0 leaves in its output window: the matrix product of x and the weights as the region found them. -/
theorem final (c : Dev nD) :
    (dat0 V c).arrAt 2 cfg0.N = product (xArr V c) (wArr V c) :=
  (dat0 V c).arrAt_eq_of_cover 2 (product (xArr V c) (wArr V c)) (fun t _ => flushed_eq V c t) covered

end Cert.KernelIdeal.Linear

end
-- ==== Proof.Region1Value.lean ====
/-
  Region 1 of the kernel program (bias and clamp), at the exact instance.

  Each of the ten grid points takes a block of 10000 rows of the aggregated array and the one bias row, and writes
  back, entry by entry, max (agg (r, q) + bias (0, q), 0). The blocks are consecutive bands of rows, so every entry
  (r, q) of the output array is written by exactly the point r / 10000, and the array the region leaves is the one
  whole-array function `biasClamp` of the two arrays the region found.
-/
import proofs.«180609_j6150393168665_1_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.BiasClamp

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The origin of a rank-2 rectangle, as the constant-zero function. -/
theorem origin2 : (![0, 0] : Fin 2 → Nat) = fun _ => 0 := funext fun a => by fin_cases a <;> rfl

/-- Every row of `a` plus the bias row `b`, clamped below at zero. -/
def biasClamp (a : FVec Ideal S100000x128 .f32) (b : FVec Ideal S1x128 .f32) : FVec Ideal S100000x128 .f32 :=
  fun i => max (a i + b (ix2 (0 : Fin 1) (⟨(i 1).val, (i 1).isLt⟩ : Fin 128))) (Ideal.ofBits .f32 0x00000000#32)

/-- The body's stored value at entry (p, q) of a block: the block's entry plus the bias row's entry q, clamped. -/
theorem payload_apply (x0 : Vec Ideal S10000x128 .f32) (x1 : Vec Ideal S1x128 .f32) (p : Fin 10000) (q : Fin 128) :
    k1_pay1 (F := Ideal) x0 x1 (ix2 p q)
      = max (x0 (ix2 p q) + x1 (ix2 (0 : Fin 1) q)) (Ideal.ofBits .f32 0x00000000#32) := by
  unfold k1_pay1
  rw [maximumf_apply, addf_apply, shapeCast_self, shapeCast_self, broadcast_apply]
  rw [broadcastTo_apply x1 _ (ix2 p q) (ix2 (0 : Fin 1) q)
    (fun a => by match a with | ⟨0, _⟩ => rfl | ⟨1, _⟩ => rfl)]
  rfl

variable (V : (c : Dev nD) → (b : Ref sig .tc) → Buf (Elt Ideal) ((c : Thread nD τ).loc b))

/-- The aggregated array as region 1 finds it, at its literal type. -/
abbrev aggArr (c : Dev nD) : FVec Ideal S100000x128 .f32 := V c main_v43
/-- The bias row as region 1 finds it, at its literal type. -/
abbrev biasArr (c : Dev nD) : FVec Ideal S1x128 .f32 := V c main_v44

/-- The index maps over the grid: the row-block index of the input and of the output is the point itself and is
    below ten; the bias window and every column-block index stay at zero. -/
theorem index_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

/-- What point `t` writes back is block `t` of `biasClamp` of the two arrays the region found. -/
theorem flushed_eq (c : Dev nD) (t : Fin cfg1.N) :
    (dat1 V c).flushed 2 t
      = ((cfg1.win 2).blk t).view.read (Elt Ideal) (biasClamp (aggArr V c) (biasArr V c)) := by
  show (cfg1.win 2).cut (grid1.coords t) ((dat1 V c).after 2 t) = _
  rw [after1_2]
  unfold out1_2
  rw [View.canon_unit_zero origin2]
  simp only [View.ld_unit_zero (S := S10000x128) origin2, View.ld_unit_zero (S := S1x128) origin2]
  obtain ⟨e0, e1, e2, e3, e4, e5⟩ := index_facts t
  funext j
  obtain ⟨p, q, rfl⟩ : ∃ (p : Fin 10000) (q : Fin 128), j = ix2 p q := ⟨j 0, j 1, eq_ix2 j⟩
  refine (payload_apply (iblk1 V c 0 t) (iblk1 V c 1 t) p q).trans ?_
  show max (aggArr V c (((cfg1.win 0).blk t).view.emb (ix2 p q)) + biasArr V c (((cfg1.win 1).blk t).view.emb (ix2 (0 : Fin 1) q))) _
    = biasClamp (aggArr V c) (biasArr V c) (((cfg1.win 2).blk t).view.emb (ix2 p q))
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) (⟨((((cfg1.win 2).blk t).view.emb (ix2 p q)) 1).val, ((((cfg1.win 2).blk t).view.emb (ix2 p q)) 1).isLt⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]
  rfl

/-- An index of the output array is in point `t`'s block iff each coordinate is in the block's range on its axis. -/
theorem mem_block (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- Every entry (r, q) of the output array lies in the block of the point r / 10000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 10 := N_1
  let t : Fin cfg1.N := ⟨(i 0).val / 10000, by show (i 0).val / 10000 < grid1.N; rw [hN]; omega⟩
  obtain ⟨e0, e1, e2, e3, e4, e5⟩ := index_facts t
  have e5' : win1_2.index t (0 : Fin 2) = (i 0).val / 10000 := e5
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array region 1 leaves in its output window: `biasClamp` of the aggregated array and the bias row as the region
    found them. -/
theorem final (c : Dev nD) :
    (dat1 V c).arrAt 2 cfg1.N = biasClamp (aggArr V c) (biasArr V c) :=
  (dat1 V c).arrAt_eq_of_cover 2 (biasClamp (aggArr V c) (biasArr V c)) (fun t _ => flushed_eq V c t) covered

end Cert.KernelIdeal.BiasClamp

end
-- ==== Proof.OutlinedSelect.lean ====
/-
  The typed references of the outlined select.

  The degree normaliser, where (deg > 0) (1 / sqrt deg) 0, is computed by an outlined function whose operations move each
  value between its tensor type and its buffer's own type, by a transport along the equation of the two types. At a
  literal buffer the two types are one and the same type, so each transport is the identity, whatever proof of the
  equation it is given: one fact per buffer and direction, each quantified over that proof.
-/
import proofs.«180609_j6150393168665_1_alg».proof.Proof.Gen.KernelIdeal.Frame
import Idealize.ShloMosaic.Lib.StableHlo
import Idealize.ShloMosaic.PureOps.Ideal

noncomputable section

namespace Cert.KernelIdeal.OutlinedSelect

open Cert.KernelIdeal Cert.KernelIdeal.Gen
open Idealize.ShloMosaic Idealize.ShloMosaic.TcCoe Idealize.SL.Sem Idealize.ShloMosaic.StableHlo

theorem to_v14 (h : (⟨S100000, .f32⟩ : BufTy).Contents (Elt Ideal) = main_v14.ty.Contents (Elt Ideal)) (v : (⟨S100000, .f32⟩ : BufTy).Contents (Elt Ideal)) : cast h v = v := rfl
theorem of_v12 (h : main_v12.ty.Contents (Elt Ideal) = (⟨S100000, .i1⟩ : BufTy).Contents (Elt Ideal)) (v : main_v12.ty.Contents (Elt Ideal)) : (cast h v : (⟨S100000, .i1⟩ : BufTy).Contents (Elt Ideal)) = v := rfl
theorem of_v13 (h : main_v13.ty.Contents (Elt Ideal) = (⟨S100000, .f32⟩ : BufTy).Contents (Elt Ideal)) (v : main_v13.ty.Contents (Elt Ideal)) : (cast h v : (⟨S100000, .f32⟩ : BufTy).Contents (Elt Ideal)) = v := rfl
theorem of_call0_v1 (h : main_call0_v1.ty.Contents (Elt Ideal) = (⟨S100000, .f32⟩ : BufTy).Contents (Elt Ideal)) (v : main_call0_v1.ty.Contents (Elt Ideal)) : (cast h v : (⟨S100000, .f32⟩ : BufTy).Contents (Elt Ideal)) = v := rfl
theorem to_call0_v1 (h : (⟨S100000, .f32⟩ : BufTy).Contents (Elt Ideal) = main_call0_v1.ty.Contents (Elt Ideal)) (v : (⟨S100000, .f32⟩ : BufTy).Contents (Elt Ideal)) : cast h v = v := rfl
theorem of_call0_v0 (h : main_call0_v0.ty.Contents (Elt Ideal) = (⟨S_, .f32⟩ : BufTy).Contents (Elt Ideal)) (v : main_call0_v0.ty.Contents (Elt Ideal)) : (cast h v : (⟨S_, .f32⟩ : BufTy).Contents (Elt Ideal)) = v := rfl
theorem to_call0_v0 (h : (⟨S_, .f32⟩ : BufTy).Contents (Elt Ideal) = main_call0_v0.ty.Contents (Elt Ideal)) (v : (⟨S_, .f32⟩ : BufTy).Contents (Elt Ideal)) : cast h v = v := rfl
theorem of_cst_2 (h : main_cst_2.ty.Contents (Elt Ideal) = (⟨S_, .f32⟩ : BufTy).Contents (Elt Ideal)) (v : main_cst_2.ty.Contents (Elt Ideal)) : (cast h v : (⟨S_, .f32⟩ : BufTy).Contents (Elt Ideal)) = v := rfl

end Cert.KernelIdeal.OutlinedSelect

end
-- ==== Proof.LibConcatPair.lean ====
/-
  A general lemma. A concatenation of two pieces depends on the pieces' contents only through the pieces themselves:
  equal first pieces and equal second pieces give equal concatenations. The side condition of a concatenation speaks of
  the pieces' shapes alone, so it is one and the same proof on both sides. Stated as a congruence, it lets a simplifier
  rewrite inside a piece, which it cannot do unaided because the side condition's type mentions the list of pieces.
  It holds for all shapes, any axis and any element type.
-/
import Idealize.ShloMosaic.PureOps.ShapeOps

namespace Idealize.ShloMosaic.ConcatPair

open Idealize.ShloMosaic

/-- Two-piece concatenations with equal pieces are equal. -/
theorem concatenate_pair_congr {α : Type} (t : Shape) (ax : Fin t.rank) (s1 s2 : Shape)
    {a a' : s1.Idx → α} {b b' : s2.Idx → α} (h : Shape.Concatenates [s1, s2] t ax) (ha : a = a') (hb : b = b') :
    concatenate t ax [⟨s1, a⟩, ⟨s2, b⟩] h = concatenate t ax [⟨s1, a'⟩, ⟨s2, b'⟩] h := by
  subst ha; subst hb; rfl

end Idealize.ShloMosaic.ConcatPair
-- ==== Proof.KernelStages.lean ====
/-
  The kernel program's host operations before region 0, read in stages against the definitions of the aggregation.

  The index vectors and the bias never pass through the outlined select, so they are read straight through the three
  stretches of host operations. The degree normaliser is computed by the outlined select: it is read over the contents
  at the stretch boundary before it, taken as given, and the moves between a value's tensor type and its buffer's own
  type are removed there, where the term is a few lines long. The edge weight is then read over the next boundary.
-/
import proofs.«180609_j6150393168665_1_alg».proof.Proof.Gen.KernelIdeal.Frame
import proofs.«180609_j6150393168665_1_alg».proof.Proof.Aggregation
import proofs.«180609_j6150393168665_1_alg».proof.Proof.OutlinedSelect
import proofs.«180609_j6150393168665_1_alg».proof.Proof.LibConcatPair
import Idealize.ShloMosaic.Lib.StableHlo.Run
import Idealize.ShloMosaic.PureOps.Ideal

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

-- reading the host operations' results goes on inside each piece of a two-piece concatenation
attribute [local congr] ConcatPair.concatenate_pair_congr

/-- The edge array as launched, at its literal type. -/
abbrev edges (c : Dev nD) : IVec S2x1600000 32 := m ((c : Thread nD τ).loc main_arg4)

/-! ## After the first stretch -/

theorem w1_v12 (c : Dev nD) :
    (W1 m ρ c (Proc.devRef .tc main_v12) : IVec S100000 1)
      = cmpf (F := Ideal) .ogt (Agg.deg (edges m c)) (broadcastInDim S100000 ![] bcast_S_S100000 (constant S_ .f32 0x00000000#32)) := by
  show StableHlo.after hostOps0 (W0 m ρ c) (Proc.devRef .tc main_v12) = _
  simp only [hostOps0]
  after_results_simp
  rfl

theorem w1_v13 (c : Dev nD) :
    (W1 m ρ c (Proc.devRef .tc main_v13) : FVec Ideal S100000 .f32) = Host.rsqrt (Agg.deg (edges m c)) := by
  show StableHlo.after hostOps0 (W0 m ρ c) (Proc.devRef .tc main_v13) = _
  simp only [hostOps0]
  after_results_simp
  rfl

theorem w1_cst2 (c : Dev nD) :
    (W1 m ρ c (Proc.devRef .tc main_cst_2) : FVec Ideal S_ .f32) = constant (F := Ideal) S_ .f32 0x00000000#32 := by
  show StableHlo.after hostOps0 (W0 m ρ c) (Proc.devRef .tc main_cst_2) = _
  simp only [hostOps0]
  after_results_simp

/-! ## After the outlined select -/

/-- The select's result is the degree normaliser. -/
theorem w2_v14 (c : Dev nD) :
    (W2 m ρ c (Proc.devRef .tc main_v14) : FVec Ideal S100000 .f32) = Agg.dis (edges m c) := by
  have h12 := w1_v12 m ρ c
  have h13 := w1_v13 m ρ c
  have hc := w1_cst2 m ρ c
  show StableHlo.after hostOps0_1 (W1 m ρ c) (Proc.devRef .tc main_v14) = _
  generalize W1 m ρ c = Wd at h12 h13 hc ⊢
  simp only [hostOps0_1]
  after_results_simp
  rw [h12, h13, hc]
  -- the outer move, then the select's three arguments one at a time
  refine (OutlinedSelect.to_v14 _ _).trans ?_
  unfold Agg.dis
  refine congr (congr (congrArg _ ?_) ?_) ?_
  · exact OutlinedSelect.of_v12 _ _
  · exact OutlinedSelect.of_v13 _ _
  · refine (OutlinedSelect.of_call0_v1 _ _).trans ((OutlinedSelect.to_call0_v1 _ _).trans ?_)
    refine congrArg (broadcastInDim (s := S_) (α := Ideal .f32) S100000 ![] bcast_S_S100000) ?_
    exact (OutlinedSelect.of_call0_v0 _ _).trans
      ((OutlinedSelect.to_call0_v0 _ _).trans (congrArg id (OutlinedSelect.of_cst_2 _ _)))

/-- The source index vector is untouched by the select. -/
theorem w2_v3 (c : Dev nD) :
    (W2 m ρ c (Proc.devRef .tc main_v3) : IVec S1700000 32) = Agg.src (edges m c) := by
  show StableHlo.after hostOps0_1 (StableHlo.after hostOps0 (W0 m ρ c)) (Proc.devRef .tc main_v3) = _
  simp only [hostOps0_1, hostOps0]
  after_results_simp
  rfl

/-- The destination index vector is untouched by the select. -/
theorem w2_v6 (c : Dev nD) :
    (W2 m ρ c (Proc.devRef .tc main_v6) : IVec S1700000 32) = Agg.dst (edges m c) := by
  show StableHlo.after hostOps0_1 (StableHlo.after hostOps0 (W0 m ρ c)) (Proc.devRef .tc main_v6) = _
  simp only [hostOps0_1, hostOps0]
  after_results_simp
  rfl

/-! ## At region 0's entry -/

/-- The edge weights: the normaliser gathered at the wrapped sources times the normaliser gathered at the wrapped
    destinations. -/
theorem w3_v29 (c : Dev nD) :
    (W3 m ρ c (Proc.devRef .tc main_v29) : FVec Ideal S1700000 .f32) = Agg.norm (edges m c) := by
  have h14 := w2_v14 m ρ c
  have h3 := w2_v3 m ρ c
  have h6 := w2_v6 m ρ c
  show StableHlo.after hostOps0_2 (W2 m ρ c) (Proc.devRef .tc main_v29) = _
  generalize W2 m ρ c = Wd at h14 h3 h6 ⊢
  simp only [hostOps0_2]
  after_results_simp
  rw [h14, h3, h6]
  rfl

theorem w3_v3 (c : Dev nD) :
    (W3 m ρ c (Proc.devRef .tc main_v3) : IVec S1700000 32) = Agg.src (edges m c) := by
  show StableHlo.after hostOps0_2 (StableHlo.after hostOps0_1 (StableHlo.after hostOps0 (W0 m ρ c))) (Proc.devRef .tc main_v3) = _
  simp only [hostOps0_2, hostOps0_1, hostOps0]
  after_results_simp
  rfl

theorem w3_v6 (c : Dev nD) :
    (W3 m ρ c (Proc.devRef .tc main_v6) : IVec S1700000 32) = Agg.dst (edges m c) := by
  show StableHlo.after hostOps0_2 (StableHlo.after hostOps0_1 (StableHlo.after hostOps0 (W0 m ρ c))) (Proc.devRef .tc main_v6) = _
  simp only [hostOps0_2, hostOps0_1, hostOps0]
  after_results_simp
  rfl

/-- The bias vector is, at region 0's entry, as launched. -/
theorem w3_arg3 (c : Dev nD) :
    W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  simp only [hostOps0_2, hostOps0_1, hostOps0]
  after_results_simp

end Cert.KernelIdeal.Stages

end
-- ==== Proof.LibDotPlain.lean ====
/-
  A general lemma. The host's plain matrix product of an [M, K] array by a [K, N] array (the left operand contracted
  on its second axis, the right on its first, no batch axes), read at the exact instance, is at entry (p, q) the
  finite sum over the contraction coordinate k of left (p, k) · right (k, q). The host product has no accumulator, so
  nothing is added in front of the sum. It holds for all sizes, both operands' formats and any precision key.
-/
import Idealize.ShloMosaic.Lib.ValueIdx
import Idealize.ShloMosaic.PureOps.Ideal.Laws
import proofs.«180609_j6150393168665_1_alg».proof.Proof.LibMatmulPlain

namespace Idealize.ShloMosaic.DotPlain

open Idealize.ShloMosaic Idealize.ShloMosaic.ValueIdx Idealize.ShloMosaic.MatmulPlain

variable {M K N : ℕ}

/-- Entry (p, q) of the host's plain product is ∑ k, left (p, k) · right (k, q). -/
theorem dotGeneral_apply {φ₁ φ₂ : FTy} (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.DotPlain
-- ==== Proof.KernelValue.lean ====
/-
  The kernel program's result as one function of the arguments, at the exact instance: the reference's own layer.

  Region 0 leaves the matrix product of x and the weights, which entry by entry is the host's plain product of the
  same two arrays. The host operations between the two regions gather that product's rows at the wrapped sources,
  scale each by its edge's weight and scatter-add them at the destinations: with the index vectors and the weights read
  at region 0's entry, that is the aggregation, which is never opened. Region 1 adds the bias row to every row and clamps
  below at zero, which entry by entry is the broadcast bias, the sum and the maximum with the zero array.
-/
import proofs.«180609_j6150393168665_1_alg».proof.Proof.KernelRun
import proofs.«180609_j6150393168665_1_alg».proof.Proof.Region0Value
import proofs.«180609_j6150393168665_1_alg».proof.Proof.Region1Value
import proofs.«180609_j6150393168665_1_alg».proof.Proof.RefValue
import proofs.«180609_j6150393168665_1_alg».proof.Proof.KernelStages
import proofs.«180609_j6150393168665_1_alg».proof.Proof.LibDotPlain
import Idealize.ShloMosaic.Lib.StableHlo.Run
import Idealize.ShloMosaic.Lib.Pipeline.Value
import Idealize.ShloMosaic.Lib.ValueIdx

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

/-- The matrix product, entry by entry, is the host's plain product. -/
theorem product_eq_dot (x : FVec Ideal S100000x128 .f32) (w : FVec Ideal S128x128 .f32) :
    Linear.product x w = Host.dotGeneral (DotDims.plain 100000 128 128) none x w := by
  funext i
  obtain ⟨p, q, rfl⟩ : ∃ (p : Fin 100000) (q : Fin 128), i = ix2 p q := ⟨i 0, i 1, eq_ix2 i⟩
  rw [DotPlain.dotGeneral_apply]
  rfl

/-- The reference's printed contraction is the plain one. -/
theorem refDims_eq :
    Cert.ReferenceIdeal.dot_S100000x128_S128x128_S100000x128_1_0_0_1_n_n = DotDims.plain 100000 128 128 := rfl

/-- Rows plus a bias row given as a cast of a vector, clamped: the reference's broadcast bias, sum and maximum with the
    zero array. -/
theorem biasClamp_eq (a : FVec Ideal S100000x128 .f32) (b : FVec Ideal S128 .f32)
    (h0 : S128.ShapeCasts S1x128) (h1 : S1x128.BroadcastsInDim S100000x128 ![0, 1])
    (h2 : S128.BroadcastsInDim S1x128 ![1]) (h3 : S_.BroadcastsInDim S100000x128 (![] : Fin 0 → Fin S100000x128.rank)) :
    BiasClamp.biasClamp a (shapeCast S1x128 b h0)
      = maximumf (addf a (broadcastInDim S100000x128 ![0, 1] h1 (broadcastInDim S1x128 ![1] h2 b)))
          (broadcastInDim S100000x128 ![] h3 (constant S_ .f32 0x00000000#32)) := by
  funext i
  obtain ⟨p, q, rfl⟩ : ∃ (p : Fin 100000) (q : Fin 128), i = ix2 p q := ⟨i 0, i 1, eq_ix2 i⟩
  rw [maximumf_apply, addf_apply]
  rw [broadcastInDim_apply ![0, 1] h1 _ (ix2 p q) (ix2 (0 : Fin 1) q) (fun a => by match a with | ⟨0, _⟩ => rfl | ⟨1, _⟩ => rfl)]
  rw [broadcastInDim_apply ![1] h2 b (ix2 (0 : Fin 1) q) (ix1 q) (fun a => by match a with | ⟨0, _⟩ => rfl)]
  rw [broadcastInDim_apply ![] h3 _ (ix2 p q) ix0 (fun a => a.elim0), constant_apply]
  show max (a (ix2 p q) + shapeCast S1x128 b h0 (ix2 (0 : Fin 1) q)) _ = _
  rw [shapeCast_apply b h0 (ix2 (0 : Fin 1) q) (ix1 q) (by rw [Shape.rowMajor_val_one, Shape.rowMajor_val_two]; show q.val = 0 * 128 + q.val; omega)]

variable (m : (ℓ : Loc nD τ sig) → Buf (Elt Ideal) ℓ) (ρ : Dev nD → PrngReg)

/-- The array x is, at region 0's entry, as launched. -/
theorem entry_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  simp only [hostOps0_2, hostOps0_1, hostOps0]
  after_results_simp

/-- The weight array is, at region 0's entry, as launched. -/
theorem entry_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  simp only [hostOps0_2, hostOps0_1, hostOps0]
  after_results_simp

/-- What region 0 leaves in its output array is the host's product of x and the weights as launched, spelt with the
    reference's own contraction. -/
theorem linear_eq (c : Dev nD) :
    (W4 m ρ c (Proc.devRef .tc main_v30) : FVec Ideal S100000x128 .f32)
      = Host.dotGeneral (F := Ideal) (φ₁ := .f32) (φ₂ := .f32) Cert.ReferenceIdeal.dot_S100000x128_S128x128_S100000x128_1_0_0_1_n_n none
          (m ((c : Thread nD τ).loc main_arg0) : FVec Ideal S100000x128 .f32)
          (m ((c : Thread nD τ).loc main_arg2) : FVec Ideal S128x128 .f32) := by
  refine (W4_arr m ρ c 2).trans ((Linear.final (V3 m ρ) c).trans ?_)
  rw [product_eq_dot, refDims_eq]
  show Host.dotGeneral (F := Ideal) (φ₁ := .f32) (φ₂ := .f32) _ none (V3 m ρ c main_arg0 : FVec Ideal S100000x128 .f32) (V3 m ρ c main_arg2 : FVec Ideal S128x128 .f32) = _
  rw [entry_arg0, entry_arg2]

/-- THE VALUE: the kernel program's result array is the layer of its four arguments as launched. -/
theorem value_eq (c : Dev nD) :
    W6 m ρ c (Proc.devRef .tc main_v45)
      = Cert.ReferenceIdeal.RefValue.layer (m ((c : Thread nD τ).loc main_arg0)) (m ((c : Thread nD τ).loc main_arg2))
          (m ((c : Thread nD τ).loc main_arg3)) (m ((c : Thread nD τ).loc main_arg4)) := by
  rw [Named.result_eq, BiasClamp.final]
  show BiasClamp.biasClamp (StableHlo.after hostOps1 (W4 m ρ c) (Proc.devRef .tc main_v43))
      (StableHlo.after hostOps1 (W4 m ρ c) (Proc.devRef .tc main_v44)) = _
  simp only [hostOps1]
  after_results_simp
  rw [linear_eq m ρ c, W4_of_ne m ρ c main_v6 (by decide), W4_of_ne m ρ c main_v3 (by decide),
    W4_of_ne m ρ c main_v29 (by decide), W4_of_ne m ρ c main_arg3 (by decide)]
  rw [Stages.w3_v6 m ρ c, Stages.w3_v3 m ρ c, Stages.w3_v29 m ρ c, Stages.w3_arg3 m ρ c]
  refine (biasClamp_eq _ _ _ Cert.ReferenceIdeal.Gen.bcast_S1x128_S100000x128_0_1
    Cert.ReferenceIdeal.Gen.bcast_S128_S1x128_1 Cert.ReferenceIdeal.Gen.bcast_S_S100000x128).trans ?_
  rfl

end Cert.KernelIdeal.Whole

end
-- ==== Proof.lean ====
/-
  The certificate of a graph-convolution layer: out = max (A (x W) + b, 0), where A is the normalised aggregation over
  the edge list with self loops (each edge weighted by the inverse square roots of its two endpoints' degrees).

  The kernel program computes x W in one pipelined region (ten blocks of 10000 rows, each block's product with the
  128 x 128 weights accumulated into zero), applies A with the host's gather and scatter-add, and adds the bias and
  clamps in a second pipelined region. The reference computes x W with the host's plain product, applies the same A,
  adds the broadcast bias and takes the maximum with zero.

  At the exact instance a change of float format is the identity, so region 0's array is, entry by entry, the finite sum
  over k of x (r, k) W (k, q): the host's product. The aggregation is one and the same composition of host operations in
  both programs, applied to that array, and is never opened. Region 1's array is, entry by entry, the reference's sum
  with the broadcast bias clamped below at zero. No step uses that the inputs are finite.

  The three frames: the two kernel programs' are the generated frames of their two regions; the reference's is its run
  with the result dropped. The idealization rewrote nothing, so `preserves` is trivial.
-/
import proofs.«180609_j6150393168665_1_alg».proof.Defs
import proofs.«180609_j6150393168665_1_alg».proof.Proof.Gen.Kernel
import proofs.«180609_j6150393168665_1_alg».proof.Proof.Gen.Kernel.Skeleton
import proofs.«180609_j6150393168665_1_alg».proof.Proof.Gen.Kernel.Launch
import proofs.«180609_j6150393168665_1_alg».proof.Proof.Gen.Kernel.Points
import proofs.«180609_j6150393168665_1_alg».proof.Proof.Gen.Kernel.Frame
import proofs.«180609_j6150393168665_1_alg».proof.Proof.Gen.KernelIdeal
import proofs.«180609_j6150393168665_1_alg».proof.Proof.Gen.KernelIdeal.Skeleton
import proofs.«180609_j6150393168665_1_alg».proof.Proof.Gen.KernelIdeal.Launch
import proofs.«180609_j6150393168665_1_alg».proof.Proof.Gen.KernelIdeal.Points
import proofs.«180609_j6150393168665_1_alg».proof.Proof.Gen.KernelIdeal.Frame
import proofs.«180609_j6150393168665_1_alg».proof.Proof.Gen.ReferenceIdeal
import proofs.«180609_j6150393168665_1_alg».proof.Proof.Gen.Pre_finite_inputs
import proofs.«180609_j6150393168665_1_alg».proof.Proof.RefRun
import proofs.«180609_j6150393168665_1_alg».proof.Proof.RefValue
import proofs.«180609_j6150393168665_1_alg».proof.Proof.KernelRun
import proofs.«180609_j6150393168665_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- The idealized kernel program runs, faults nowhere and leaves its arguments as launched. -/
theorem frame_kernelIdeal : Cert.frame_KernelIdeal := fun m ρ _ => Cert.KernelIdeal.Gen.frame m ρ

/-- The reference runs, faults nowhere and leaves its arguments as launched: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- The two results are one array: the reference's result term is the layer of its arguments, its arguments are the
    kernel program's, and the kernel program's result array is the layer of those. -/
theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    Cert.ReferenceIdeal.RefRun.res_main_v47 (F := Ideal) m' c
      = Cert.KernelIdeal.Gen.W6 m ρ c (Proc.devRef .tc Cert.KernelIdeal.main_v45) := by
  rw [Cert.ReferenceIdeal.RefValue.result_eq m' c, (hagree c).1, (hagree c).2.2.1, (hagree c).2.2.2.1, (hagree c).2.2.2.2]
  exact (Cert.KernelIdeal.Whole.value_eq m ρ c).symm

/-- From memories that agree on the arguments both programs end with the same result array: the kernel program's is
    what its last region leaves, and the reference's result term is that array. -/
theorem algebraic : Cert.algebraic_KernelIdeal_ReferenceIdeal := by
  intro m ρ m' ρ' _ hagree
  refine ⟨fun c => Cert.KernelIdeal.Gen.W6 m ρ c (Proc.devRef .tc Cert.KernelIdeal.main_v45),
    Cert.KernelIdeal.Named.run_named m ρ, ?_⟩
  exact (θ_run Cert.ReferenceIdeal.defs _ _).mono
    (fun _ h c => ⟨(h c).1.trans (results_agree m ρ m' hagree c), (h c).2⟩)
    (Cert.ReferenceIdeal.RefRun.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
